-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_arg4 : FVec F S2048x1 .f32) (main_v13 : IVec S_ 1) (main_v16 : IVec S2048x1 1) : IVec S_ 1 :=
  let main_c_5 : IVec S_ 1 := constantI S_ 1 1#1
  let main_v17 : IVec S_ 1 := (fun x v => Host.reduce IntOp.andi x v reducesTo_S2048x1_S_d0_1 h_S_) main_v16 main_c_5
  let main_v18 : IVec S_ 1 := andi main_v13 main_v17
  let main_v19 : FVec F S2048x1 .f32 := Host.absf main_arg4
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  main_v23

def fn {F : FTy → Type} [FloatOps F] (main_arg0 : FVec F S4x4096x2048 .f32) (main_arg1 : FVec F S2048x2048 .f32) (main_arg2 : FVec F S2048 .f32) (main_arg3 : FVec F S2048x1 .f32) (main_arg4 : FVec F S2048x1 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1 .f32 := Host.absf main_arg3
  let main_cst_4 : FVec F S_ .f32 := constant S_ .f32 0x7F800000#32
  let main_v15 : FVec F S2048x1 .f32 := broadcastInDim S2048x1 ![] bcast_S_S2048x1 main_cst_4
  let main_v16 : IVec S2048x1 1 := cmpf .olt main_v14 main_v15
  fn_part1 (F := F) main_arg4 main_v13 main_v16
-- ==== Kernel.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S16384x2048 : Shape := ⟨2, ![16384, 2048]⟩
abbrev S1x2048 : Shape := ⟨2, ![1, 2048]⟩
abbrev S512x2048 : Shape := ⟨2, ![512, 2048]⟩
abbrev S1024x2048 : Shape := ⟨2, ![1024, 2048]⟩
abbrev S1x1024 : Shape := ⟨2, ![1, 1024]⟩
abbrev S512x1024 : Shape := ⟨2, ![512, 1024]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x1, .f32⟩
  | .hbm, ⟨4, _⟩ => ⟨S2048x1, .f32⟩
  | .hbm, ⟨5, _⟩ => ⟨S2048x2048, .bf16⟩
  | .hbm, ⟨6, _⟩ => ⟨S16384x2048, .f32⟩
  | .hbm, ⟨7, _⟩ => ⟨S1x2048, .f32⟩
  | .hbm, ⟨8, _⟩ => ⟨S16384x2048, .f32⟩
  | .hbm, ⟨9, _⟩ => ⟨S4x4096x2048, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x2048, .bf16⟩
  | .local _ .vmem, ⟨7, _⟩ => ⟨S256x2048, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x2048_S256x2048_0_0 : ∀ a, (![0, 0] : Fin 2 → Nat) a + S256x2048.size a ≤ S256x2048.size a
  h_S256x2048 : 0 < S256x2048.numel
  inb_S256x1_S256x1_0_0 : ∀ a, (![0, 0] : Fin 2 → Nat) a + S256x1.size a ≤ S256x1.size a
  h_S256x1 : 0 < S256x1.numel
  broadcasts_S256x1_S256x2048 : S256x1.Broadcasts S256x2048
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  shapeCasts_S4x4096x2048_S16384x2048 : S4x4096x2048.ShapeCasts S16384x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x2048_S4x4096x2048 : S16384x2048.ShapeCasts S4x4096x2048
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S2048x1.size a
  hwx0_2 : ∀ i : grid0.Coords, EltTy.bits .f32 = 32 ∨ (Rect.block (s := S2048x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S2048x2048.size a
  hwx1_1 : ∀ i : grid1.Coords, EltTy.bits .bf16 = 32 ∨ (Rect.block (s := S2048x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x2048.size a
  hwx1_3 : ∀ i : grid1.Coords, EltTy.bits .f32 = 32 ∨ (Rect.block (s := S16384x2048) S512x1024.size (cc1_transform_3 i) (hinb1_3 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S2048 : Shape := ⟨1, ![2048]⟩
abbrev S2048x1 : Shape := ⟨2, ![2048, 1]⟩
abbrev S_ : Shape := ⟨0, ![]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048, .f32⟩
  | .hbm, ⟨3, _⟩ => ⟨S2048x1, .f32⟩
  | .hbm, ⟨4, _⟩ => ⟨S2048x1, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Spec.lean ====
/-
  The mathematics both programs compute, stated once over plain index functions on the extended reals.

  A weight `w` of output channel `o` is sent through the affine fake quantizer of that channel (scale `s`, zero point `z`):
  `s · (clamp₀²⁵⁵ (roundeven (w / s + z)) − z)`. The layer's result at (batch b, position p, channel o) is the inner
  product over the 2048 input features of the activation row with the fake-quantized weight row of channel o, plus the
  channel's bias. The same functions are also given on the flattened (b·4096 + p, o) layout the two-dimensional product uses.
-/
import Idealize.ShloMosaic.PureOps.Ideal
import Idealize.ShloMosaic.Lib.ValueIdx

noncomputable section

open scoped BigOperators

namespace Cert.Spec

open Idealize.ShloMosaic Idealize.ShloMosaic.ValueIdx

/-- One weight through its channel's fake quantizer: divide by the scale, shift by the zero point, round to nearest
    (ties to even), clamp to [0, 255], shift back and rescale. The two clamp bounds are kept as their float words. -/
def fakeQuant (w s z : EReal) : EReal :=
  s * (min (Ideal.ofBits .f32 0x437F0000#32)
        (max (Ideal.ofBits .f32 0x00000000#32) (Ideal.liftRound Ideal.roundHalfEven (Ideal.div w s + z))) - z)

/-- The row of a [R, 2048] index as an index of the [R, 1] column of per-channel parameters. -/
abbrev chan {R C : Nat} (j : (⟨2, ![R, C]⟩ : Shape).Idx) : (⟨2, ![R, 1]⟩ : Shape).Idx := fun a => match a with
  | ⟨0, _⟩ => ⟨(j 0).val, (j 0).isLt⟩
  | ⟨1, _⟩ => ⟨0, Nat.one_pos⟩

/-- The fake-quantized weight matrix: entry (o, d) is weight (o, d) through channel o's quantizer. -/
def dequant (w : (⟨2, ![2048, 2048]⟩ : Shape).Idx → EReal) (s z : (⟨2, ![2048, 1]⟩ : Shape).Idx → EReal) :
    (⟨2, ![2048, 2048]⟩ : Shape).Idx → EReal :=
  fun j => fakeQuant (w j) (s (chan j)) (z (chan j))

/-- The inner product of two rows of 2048 features, plus an offset. -/
def dotRow (f g : Fin 2048 → EReal) (b : EReal) : EReal := (∑ k : Fin 2048, f k * g k) + b

/-- The flattened linear layer: row r of the [16384, 2048] activations against row o of the weights, plus bias o
    (the bias as a [1, 2048] row). -/
def linearFlat (x : (⟨2, ![16384, 2048]⟩ : Shape).Idx → EReal) (d : (⟨2, ![2048, 2048]⟩ : Shape).Idx → EReal)
    (b : (⟨2, ![1, 2048]⟩ : Shape).Idx → EReal) : (⟨2, ![16384, 2048]⟩ : Shape).Idx → EReal :=
  fun i => dotRow (fun k => x (ix2 (i 0) k)) (fun k => d (ix2 (i 1) k)) (b (ix2 (0 : Fin 1) (i 1)))

/-- The layer's result: at (b, p, o) the sum over the input features k of x (b, p, k) times the fake-quantized weight
    (o, k), plus bias o. -/
def result (x : (⟨3, ![4, 4096, 2048]⟩ : Shape).Idx → EReal) (w : (⟨2, ![2048, 2048]⟩ : Shape).Idx → EReal)
    (b : (⟨1, ![2048]⟩ : Shape).Idx → EReal) (s z : (⟨2, ![2048, 1]⟩ : Shape).Idx → EReal) :
    (⟨3, ![4, 4096, 2048]⟩ : Shape).Idx → EReal :=
  fun i => dotRow (fun k => x (ix3 (i 0) (i 1) k)) (fun k => dequant w s z (ix2 (i 2) k)) (b (ix1 (i 2)))

end Cert.Spec

end
-- ==== Proof.Region0.lean ====
/-
  The first kernel region's output array. The grid has 8 points; point t stages rows 256·t … 256·t + 255 of the weight
  matrix and the same rows of the two per-channel columns (scale, zero point), and writes back the same rows of the
  output. Inside a block the body is pointwise: entry (p, q) is the weight (p, q) through the fake quantizer with row p's
  scale and zero point (the narrowing to bf16 is the identity on extended reals). The 8 row blocks tile the 2048 rows, so
  after the region the whole array is the fake-quantized weight matrix of the arrays the region was entered with.
-/
import proofs.«162081_j22136261444314_1_alg».proof.Proof.Gen.KernelIdeal.Frame
import proofs.«162081_j22136261444314_1_alg».proof.Proof.Spec
import Idealize.ShloMosaic.Lib.Pipeline.Value
import Idealize.ShloMosaic.Lib.ValueIdx

set_option maxRecDepth 16384

noncomputable section

namespace Cert.KernelIdeal.Quant

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

theorem origin : (![0, 0] : Fin 2 → Nat) = fun _ => 0 := funext fun a => by fin_cases a <;> rfl

/-- A [256, 1] column broadcast along the 2048 lanes reads, at (p, q), the column's row p. -/
theorem bcast_col (v : Vec Ideal S256x1 .f32) (y : S256x2048.Idx) :
    broadcastTo S256x2048 v broadcasts_S256x1_S256x2048 y = v (chan (R := 256) (C := 2048) y) :=
  broadcastTo_apply v broadcasts_S256x1_S256x2048 y (chan (R := 256) (C := 2048) y) (fun a => match a with
    | ⟨0, _⟩ => by show (y 0).val = if (256 : Nat) = 1 then 0 else (y 0).val; rw [if_neg (by decide)]
    | ⟨1, _⟩ => by show 0 = if (1 : Nat) = 1 then 0 else (y 1).val; rw [if_pos rfl])

/-- The body's stored value at an index of the block: the weight there through the fake quantizer of its row. -/
theorem pay_at (x0 : Vec Ideal S256x2048 .f32) (x1 x2 : Vec Ideal S256x1 .f32) (y : S256x2048.Idx) :
    k0_pay1 x0 x1 x2 y = fakeQuant (x0 y) (x1 (chan (R := 256) (C := 2048) y)) (x2 (chan (R := 256) (C := 2048) y)) := by
  unfold fakeQuant
  rw [← bcast_col x1 y, ← bcast_col x2 y]
  rfl

/-- The four index maps over the 8 points: every window's row-block index is the point's number, its column-block index 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the fake-quantized weight matrix of the entry arrays. -/
theorem flushed_eq (c : Dev nD) (t : Fin cfg0.N) :
    (dat0 V c).flushed 3 t = ((cfg0.win 3).blk t).view.read (Elt Ideal)
      (dequant (V c main_arg1) (V c main_arg3) (V c main_arg4)) := by
  show (cfg0.win 3).cut (grid0.coords t) ((dat0 V c).after 3 t) = _
  rw [after0_3]
  unfold out0_3
  rw [View.canon_unit_zero origin]
  simp only [View.ld_unit_zero (S := S256x2048) origin, View.ld_unit_zero (S := S256x1) origin]
  obtain ⟨e0, e1, e2, e3, e4, e5, e6, e7⟩ := idx_facts t
  funext j
  refine (pay_at (iblk0 V c 0 t) (iblk0 V c 1 t) (iblk0 V c 2 t) j).trans ?_
  show fakeQuant (V c main_arg1 (((cfg0.win 0).blk t).view.emb j))
      (V c main_arg3 (((cfg0.win 1).blk t).view.emb (chan (R := 256) (C := 2048) j)))
      (V c main_arg4 (((cfg0.win 2).blk t).view.emb (chan (R := 256) (C := 2048) j)))
    = fakeQuant (V c main_arg1 (((cfg0.win 3).blk t).view.emb j))
      (V c main_arg3 (chan (R := 2048) (C := 2048) (((cfg0.win 3).blk t).view.emb j)))
      (V c main_arg4 (chan (R := 2048) (C := 2048) (((cfg0.win 3).blk t).view.emb j)))
  have hj0 : (j 0).val < 256 := (j 0).isLt
  have hj1 : (j 1).val < 2048 := (j 1).isLt
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 2048 + 1 * (j 1).val = win0_3.index t (1 : Fin 2) * 2048 + 1 * (j 1).val; omega
  have h1 : ((cfg0.win 1).blk t).view.emb (chan (R := 256) (C := 2048) j) = chan (R := 2048) (C := 2048) (((cfg0.win 3).blk t).view.emb j) := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 1 + 1 * 0 = 0; omega
  have h2 : ((cfg0.win 2).blk t).view.emb (chan (R := 256) (C := 2048) j) = chan (R := 2048) (C := 2048) (((cfg0.win 3).blk t).view.emb j) := by
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 1 + 1 * 0 = 0; omega
  rw [h0, h1, h2]

/-- An index of the array is in point t's block iff each coordinate is in the block's range on its axis. -/
theorem mem_blk (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v0).slice (win0_3.rect t)).set ↔ _
  rw [View.set_slice_whole, Rect.mem_set_unit]
  exact Iff.rfl

/-- Every index of the array is in the block of the point numbered by its row divided by 256. -/
theorem cover (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  have hN : cfg0.N = 8 := N_0
  refine ⟨⟨(i 0).val / 256, by rw [hN]; omega⟩, flush0_3 _, ?_⟩
  rw [mem_blk]
  obtain ⟨-, -, -, -, -, -, e6, e7⟩ := idx_facts ⟨(i 0).val / 256, by rw [hN]; omega⟩
  intro a
  match a with
  | ⟨0, _⟩ =>
    show win0_3.index ⟨(i 0).val / 256, _⟩ (0 : Fin 2) * 256 ≤ (i 0).val ∧ (i 0).val < win0_3.index ⟨(i 0).val / 256, _⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, _⟩ (1 : Fin 2) * 2048 ≤ (i 1).val ∧ (i 1).val < win0_3.index ⟨(i 0).val / 256, _⟩ (1 : Fin 2) * 2048 + 2048
    rw [e7]; omega

/-- After the region the output array is the fake-quantized weight matrix of the arrays the region was entered with. -/
theorem final (c : Dev nD) :
    (dat0 V c).arrAt 3 cfg0.N = dequant (V c main_arg1) (V c main_arg3) (V c main_arg4) :=
  (dat0 V c).arrAt_eq_of_cover 3 _ (fun t _ => flushed_eq V c t) cover

end Cert.KernelIdeal.Quant

end
-- ==== Proof.Region1.lean ====
/-
  The second kernel region's output array. The grid is 32 × 2; point t = 2·i + j stages rows 512·i … 512·i + 511 of the
  flattened activations (all 2048 features), rows 1024·j … 1024·j + 1023 of the fake-quantized weights (all 2048
  features), columns 1024·j … of the bias row, and writes back the [512, 1024] block (i, j) of the output. Inside a
  block entry (p, q) is the inner product over the 2048 features of activation row p with weight row q, accumulated
  from zero, plus the bias at q (the narrowing of the activations to bf16 is the identity on extended reals). The 64
  blocks tile the output, so after the region the whole array is the flattened linear layer of the arrays the region was
  entered with.
-/
import proofs.«162081_j22136261444314_1_alg».proof.Proof.Gen.KernelIdeal.Frame
import proofs.«162081_j22136261444314_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

theorem origin : (![0, 0] : Fin 2 → Nat) = fun _ => 0 := funext fun a => by fin_cases a <;> rfl

/-! ## The product's operand indices: the left operand is read at (output row, k), the right at (output column, k) -/

theorem lhs_row (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs_feat (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem rhs_row (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs_feat (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The product into a zero accumulator, at an output index: the sum over the 2048 features of the left operand at
    (row, k) times the right operand at (column, k). -/
theorem matmul_at (a : FVec Ideal S512x2048 .bf16) (b : FVec Ideal S1024x2048 .bf16) (y : S512x1024.Idx) :
    matmul dot_S512x2048_S1024x2048_S512x1024_1_1_0_0_n_n none a b (constant S512x1024 .f32 0x00000000#32) y
      = ∑ k : Fin 2048, a (ix2 (n0 := 512) (n1 := 2048) (y 0) k) * b (ix2 (n0 := 1024) (n1 := 2048) (y 1) k) := by
  simp only [matmul]
  rw [Ideal.matmul_constant_zero_apply, ← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx y ((ValueIdx.contrEquiv1 dot_S512x2048_S1024x2048_S512x1024_1_1_0_0_n_n 2048 rfl rfl).symm k) = ix2 (n0 := 512) (n1 := 2048) (y 0) k := funext fun ax => Fin.ext (by
    match ax with
    | ⟨0, _⟩ => exact lhs_row _ _
    | ⟨1, _⟩ => exact (lhs_feat _ _).trans hk)
  have er : dot_S512x2048_S1024x2048_S512x1024_1_1_0_0_n_n.rhsIdx y ((ValueIdx.contrEquiv1 dot_S512x2048_S1024x2048_S512x1024_1_1_0_0_n_n 2048 rfl rfl).symm k) = ix2 (n0 := 1024) (n1 := 2048) (y 1) k := funext fun ax => Fin.ext (by
    match ax with
    | ⟨0, _⟩ => exact rhs_row _ _
    | ⟨1, _⟩ => exact (rhs_feat _ _).trans hk)
  rw [el, er]

/-- The body's stored value at an index of the block: the inner product of activation row and weight row, plus the bias. -/
theorem pay_at (x0 : Vec Ideal S512x2048 .f32) (x1 : Vec Ideal S1024x2048 .bf16) (x2 : Vec Ideal S1x1024 .f32) (y : S512x1024.Idx) :
    k1_pay1 x0 x1 x2 y
      = dotRow (fun k => x0 (ix2 (n0 := 512) (n1 := 2048) (y 0) k)) (fun k => x1 (ix2 (n0 := 1024) (n1 := 2048) (y 1) k))
          (x2 (ix2 (n0 := 1) (n1 := 1024) (0 : Fin 1) (y 1))) := by
  unfold k1_pay1 dotRow
  rw [shapeCast_self, shapeCast_self, shapeCast_self, addf_apply, matmul_at]
  obtain ⟨p, q, rfl⟩ : ∃ (p : Fin 512) (q : Fin 1024), y = ix2 p q := ⟨y 0, y 1, eq_ix2 y⟩
  rw [broadcastTo_1b_ab_apply]
  rfl

/-- The four index maps over the 64 points: point t is block row t / 2 and block column t % 2 of the output; the
    activations move with the block row, the weights and the bias with the block column. -/
theorem idx_facts : ∀ t : Fin cfg1.N,
    win1_0.index t (0 : Fin 2) = t.val / 2 ∧ win1_0.index t (1 : Fin 2) = 0
    ∧ win1_1.index t (0 : Fin 2) = t.val % 2 ∧ win1_1.index t (1 : Fin 2) = 0
    ∧ win1_2.index t (0 : Fin 2) = 0 ∧ win1_2.index t (1 : Fin 2) = t.val % 2
    ∧ win1_3.index t (0 : Fin 2) = t.val / 2 ∧ win1_3.index t (1 : Fin 2) = t.val % 2 :=
  (by decide +kernel : ∀ t : Fin grid1.N, _)

/-- What point t writes back is block t of the flattened linear layer of the entry arrays. -/
theorem flushed_eq (c : Dev nD) (t : Fin cfg1.N) :
    (dat1 V c).flushed 3 t = ((cfg1.win 3).blk t).view.read (Elt Ideal)
      (linearFlat (V c main_v1) (V c main_v0) (V c main_v2)) := by
  show (cfg1.win 3).cut (grid1.coords t) ((dat1 V c).after 3 t) = _
  rw [after1_3]
  unfold out1_3
  rw [View.canon_unit_zero origin]
  simp only [View.ld_unit_zero (S := S512x2048) origin, View.ld_unit_zero (S := S1024x2048) origin, View.ld_unit_zero (S := S1x1024) origin]
  obtain ⟨e0, e1, e2, e3, e4, e5, e6, e7⟩ := idx_facts t
  funext j
  refine (pay_at (iblk1 V c 0 t) (iblk1 V c 1 t) (iblk1 V c 2 t) j).trans ?_
  show dotRow (fun k => V c main_v1 (((cfg1.win 0).blk t).view.emb (ix2 (n0 := 512) (n1 := 2048) (j 0) k)))
        (fun k => V c main_v0 (((cfg1.win 1).blk t).view.emb (ix2 (n0 := 1024) (n1 := 2048) (j 1) k)))
        (V c main_v2 (((cfg1.win 2).blk t).view.emb (ix2 (n0 := 1) (n1 := 1024) (0 : Fin 1) (j 1))))
    = dotRow (fun k => V c main_v1 (ix2 (n0 := 16384) (n1 := 2048) ((((cfg1.win 3).blk t).view.emb j) 0) k))
        (fun k => V c main_v0 (ix2 (n0 := 2048) (n1 := 2048) ((((cfg1.win 3).blk t).view.emb j) 1) k))
        (V c main_v2 (ix2 (n0 := 1) (n1 := 2048) (0 : Fin 1) ((((cfg1.win 3).blk t).view.emb j) 1)))
  have hj0 : (j 0).val < 512 := (j 0).isLt
  have hj1 : (j 1).val < 1024 := (j 1).isLt
  have h0 : ∀ k : Fin 2048, ((cfg1.win 0).blk t).view.emb (ix2 (n0 := 512) (n1 := 2048) (j 0) k)
      = ix2 (n0 := 16384) (n1 := 2048) ((((cfg1.win 3).blk t).view.emb j) 0) k := fun k => by
    funext a; apply Fin.ext
    match a with
    | ⟨0, _⟩ => show win1_0.index t (0 : Fin 2) * 512 + 1 * (j 0).val = win1_3.index t (0 : Fin 2) * 512 + 1 * (j 0).val; omega
    | ⟨1, _⟩ => show win1_0.index t (1 : Fin 2) * 2048 + 1 * k.val = k.val; omega
  have h1 : ∀ k : Fin 2048, ((cfg1.win 1).blk t).view.emb (ix2 (n0 := 1024) (n1 := 2048) (j 1) k)
      = ix2 (n0 := 2048) (n1 := 2048) ((((cfg1.win 3).blk t).view.emb j) 1) k := fun k => by
    funext a; apply Fin.ext
    match a with
    | ⟨0, _⟩ => show win1_1.index t (0 : Fin 2) * 1024 + 1 * (j 1).val = win1_3.index t (1 : Fin 2) * 1024 + 1 * (j 1).val; omega
    | ⟨1, _⟩ => show win1_1.index t (1 : Fin 2) * 2048 + 1 * k.val = k.val; omega
  have h2 : ((cfg1.win 2).blk t).view.emb (ix2 (n0 := 1) (n1 := 1024) (0 : Fin 1) (j 1))
      = ix2 (n0 := 1) (n1 := 2048) (0 : Fin 1) ((((cfg1.win 3).blk t).view.emb j) 1) := by
    funext a; apply Fin.ext
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega
  simp only [h0, h1, h2]

/-- An index of the array is in point t's block iff each coordinate is in the block's range on its axis. -/
theorem mem_blk (t : Fin cfg1.N) (i : S16384x2048.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v3).slice (win1_3.rect t)).set ↔ _
  rw [View.set_slice_whole, Rect.mem_set_unit]
  exact Iff.rfl

/-- Every index (r, o) of the array is in the block of point 2·(r / 512) + o / 1024. -/
theorem cover (i : S16384x2048.Idx) : ∃ t : Fin cfg1.N, (cfg1.win 3).flush t = true ∧ i ∈ ((cfg1.win 3).blk t).view.set := by
  have hi0 : (i 0).val < 16384 := (i 0).isLt
  have hi1 : (i 1).val < 2048 := (i 1).isLt
  have hN : cfg1.N = 64 := N_1
  refine ⟨⟨2 * ((i 0).val / 512) + (i 1).val / 1024, by rw [hN]; omega⟩, flush1_3 _, ?_⟩
  rw [mem_blk]
  obtain ⟨-, -, -, -, -, -, e6, e7⟩ := idx_facts ⟨2 * ((i 0).val / 512) + (i 1).val / 1024, by rw [hN]; omega⟩
  intro a
  match a with
  | ⟨0, _⟩ =>
    show win1_3.index ⟨2 * ((i 0).val / 512) + (i 1).val / 1024, _⟩ (0 : Fin 2) * 512 ≤ (i 0).val ∧ (i 0).val < win1_3.index ⟨2 * ((i 0).val / 512) + (i 1).val / 1024, _⟩ (0 : Fin 2) * 512 + 512
    rw [e6]; show (2 * ((i 0).val / 512) + (i 1).val / 1024) / 2 * 512 ≤ (i 0).val ∧ (i 0).val < (2 * ((i 0).val / 512) + (i 1).val / 1024) / 2 * 512 + 512; omega
  | ⟨1, _⟩ =>
    show win1_3.index ⟨2 * ((i 0).val / 512) + (i 1).val / 1024, _⟩ (1 : Fin 2) * 1024 ≤ (i 1).val ∧ (i 1).val < win1_3.index ⟨2 * ((i 0).val / 512) + (i 1).val / 1024, _⟩ (1 : Fin 2) * 1024 + 1024
    rw [e7]; show (2 * ((i 0).val / 512) + (i 1).val / 1024) % 2 * 1024 ≤ (i 1).val ∧ (i 1).val < (2 * ((i 0).val / 512) + (i 1).val / 1024) % 2 * 1024 + 1024; omega

/-- After the region the output array is the flattened linear layer of the arrays the region was entered with. -/
theorem final (c : Dev nD) :
    (dat1 V c).arrAt 3 cfg1.N = linearFlat (V c main_v1) (V c main_v0) (V c main_v2) :=
  (dat1 V c).arrAt_eq_of_cover 3 _ (fun t _ => flushed_eq V c t) cover

end Cert.KernelIdeal.Linear

end
-- ==== Proof.Reshape.lean ====
/-
  The three reshapes around the flattened layer do nothing to the mathematics. Flattening (b, p) to the row
  b·4096 + p, taking the flattened linear layer with the bias laid out as a [1, 2048] row, and unflattening the rows
  again gives, at (b, p, o), the inner product of activation row (b, p) with weight row o plus bias o: the
  specification's result. Each reshape keeps the row-major position, which is all that is used.
-/
import proofs.«162081_j22136261444314_1_alg».proof.Proof.Spec
import Idealize.ShloMosaic.Lib.Pipeline.Value
import Idealize.ShloMosaic.Lib.ValueLayout

noncomputable section

namespace Cert.Spec

open Idealize.ShloMosaic Idealize.ShloMosaic.ValueIdx

/-- The flattened activations at (b·4096 + p, k) are the activations at (b, p, k). -/
theorem flat_act (x : (⟨3, ![4, 4096, 2048]⟩ : Shape).Idx → EReal)
    (h : (⟨3, ![4, 4096, 2048]⟩ : Shape).ShapeCasts ⟨2, ![16384, 2048]⟩)
    (b : Fin 4) (p : Fin 4096) (k : Fin 2048) (hr : b.val * 4096 + p.val < 16384) :
    shapeCast ⟨2, ![16384, 2048]⟩ x h (ix2 (n0 := 16384) (n1 := 2048) ⟨b.val * 4096 + p.val, hr⟩ k)
      = x (ix3 (n0 := 4) (n1 := 4096) (n2 := 2048) b p k) :=
  shapeCast_apply x h _ _ (by
    rw [Shape.rowMajor_val_two, Shape.rowMajor_val_three]
    show (b.val * 4096 + p.val) * 2048 + k.val = (b.val * 4096 + p.val) * 2048 + k.val
    rfl)

/-- Flatten, apply the flattened layer to the fake-quantized weights, unflatten: the specification's result. -/
theorem unflatten_linearFlat (x : (⟨3, ![4, 4096, 2048]⟩ : Shape).Idx → EReal) (w : (⟨2, ![2048, 2048]⟩ : Shape).Idx → EReal)
    (b : (⟨1, ![2048]⟩ : Shape).Idx → EReal) (s z : (⟨2, ![2048, 1]⟩ : Shape).Idx → EReal)
    (h1 : (⟨3, ![4, 4096, 2048]⟩ : Shape).ShapeCasts ⟨2, ![16384, 2048]⟩)
    (h2 : (⟨1, ![2048]⟩ : Shape).ShapeCasts ⟨2, ![1, 2048]⟩)
    (h3 : (⟨2, ![16384, 2048]⟩ : Shape).ShapeCasts ⟨3, ![4, 4096, 2048]⟩) :
    shapeCast ⟨3, ![4, 4096, 2048]⟩
        (linearFlat (shapeCast ⟨2, ![16384, 2048]⟩ x h1) (dequant w s z) (shapeCast ⟨2, ![1, 2048]⟩ b h2)) h3
      = result x w b s z := by
  funext i
  have hb : (i 0).val < 4 := (i 0).isLt
  have hp : (i 1).val < 4096 := (i 1).isLt
  have ho : (i 2).val < 2048 := (i 2).isLt
  have hr : (i 0).val * 4096 + (i 1).val < 16384 := by omega
  rw [shapeCast_apply _ h3 i (ix2 (n0 := 16384) (n1 := 2048) ⟨(i 0).val * 4096 + (i 1).val, hr⟩ (i 2)) (by
    rw [Shape.rowMajor_val_two, Shape.rowMajor_val_three]
    show ((i 0).val * 4096 + (i 1).val) * 2048 + (i 2).val = ((i 0).val * 4096 + (i 1).val) * 2048 + (i 2).val
    rfl)]
  unfold linearFlat result
  show dotRow (fun k => shapeCast ⟨2, ![16384, 2048]⟩ x h1 (ix2 (n0 := 16384) (n1 := 2048) ⟨(i 0).val * 4096 + (i 1).val, hr⟩ k))
      (fun k => dequant w s z (ix2 (n0 := 2048) (n1 := 2048) (i 2) k))
      (shapeCast ⟨2, ![1, 2048]⟩ b h2 (ix2 (n0 := 1) (n1 := 2048) (0 : Fin 1) (i 2)))
    = dotRow (fun k => x (ix3 (n0 := 4) (n1 := 4096) (n2 := 2048) (i 0) (i 1) k))
      (fun k => dequant w s z (ix2 (n0 := 2048) (n1 := 2048) (i 2) k)) (b (ix1 (n := 2048) (i 2)))
  have hbias : shapeCast ⟨2, ![1, 2048]⟩ b h2 (ix2 (n0 := 1) (n1 := 2048) (0 : Fin 1) (i 2)) = b (ix1 (n := 2048) (i 2)) :=
    shapeCast_a_1a_apply b h2 (0 : Fin 1) (i 2)
  have hx : (fun k : Fin 2048 => shapeCast ⟨2, ![16384, 2048]⟩ x h1 (ix2 (n0 := 16384) (n1 := 2048) ⟨(i 0).val * 4096 + (i 1).val, hr⟩ k))
      = fun k => x (ix3 (n0 := 4) (n1 := 4096) (n2 := 2048) (i 0) (i 1) k) :=
    funext fun k => flat_act x h1 (i 0) (i 1) k hr
  rw [hbias, hx]

end Cert.Spec

end
-- ==== Proof.KernelValue.lean ====
/-
  The kernel program's result array, from the launch memory. @main is: the quantizing region; two reshapes (the
  activations flattened to [16384, 2048], the bias laid out as a [1, 2048] row); the product region; the reshape of its
  output back to [4, 4096, 2048]. Folding the contents of the buffers through these four segments: the product region
  is entered with the flattened activations, the first region's output array — the fake-quantized weights of the launch
  arrays, since nothing in between writes it — and the bias row; it leaves the flattened linear layer of those; and the
  last reshape of that is the specification's result of the five argument arrays.
-/
import proofs.«162081_j22136261444314_1_alg».proof.Proof.Gen.KernelIdeal.Frame
import proofs.«162081_j22136261444314_1_alg».proof.Proof.Region0
import proofs.«162081_j22136261444314_1_alg».proof.Proof.Region1
import proofs.«162081_j22136261444314_1_alg».proof.Proof.Reshape
import Idealize.ShloMosaic.Lib.StableHlo.Run
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.ValueIdx
open Cert.Spec

variable (m : (ℓ : Loc nD τ sig) → Buf (Elt Ideal) ℓ) (ρ : Dev nD → PrngReg)

/-- The product region is entered with the activations flattened. -/
theorem entry_act (c : Dev nD) :
    V2 m ρ c main_v1 = shapeCast S16384x2048 (m ((c : Thread nD τ).loc main_arg0)) shapeCasts_S4x4096x2048_S16384x2048 := by
  show StableHlo.after hostOps1 (W1 m ρ c) (Proc.devRef .tc main_v1) = _
  after_results
  rw [W1_of_ne m ρ c main_arg0 (by decide)]
  rfl

/-- The product region is entered with the bias as a [1, 2048] row. -/
theorem entry_bias (c : Dev nD) :
    V2 m ρ c main_v2 = shapeCast S1x2048 (m ((c : Thread nD τ).loc main_arg2)) shapeCasts_S2048_S1x2048 := by
  show StableHlo.after hostOps1 (W1 m ρ c) (Proc.devRef .tc main_v2) = _
  after_results
  rw [W1_of_ne m ρ c main_arg2 (by decide)]
  rfl

/-- The product region is entered with the fake-quantized weights of the launch arrays: the first region's output array,
    which the two reshapes in between do not write. -/
theorem entry_weights (c : Dev nD) :
    V2 m ρ c main_v0 = dequant (m ((c : Thread nD τ).loc main_arg1)) (m ((c : Thread nD τ).loc main_arg3)) (m ((c : Thread nD τ).loc main_arg4)) := by
  show StableHlo.after hostOps1 (W1 m ρ c) (Proc.devRef .tc main_v0) = _
  after_results
  exact (W1_arr m ρ c 3).trans (Quant.final (V0 m ρ) c)

/-- The product region leaves the flattened linear layer of those three arrays in its output array. -/
theorem out_flat (c : Dev nD) :
    W3 m ρ c (Proc.devRef .tc main_v3)
      = linearFlat (shapeCast S16384x2048 (m ((c : Thread nD τ).loc main_arg0)) shapeCasts_S4x4096x2048_S16384x2048)
          (dequant (m ((c : Thread nD τ).loc main_arg1)) (m ((c : Thread nD τ).loc main_arg3)) (m ((c : Thread nD τ).loc main_arg4)))
          (shapeCast S1x2048 (m ((c : Thread nD τ).loc main_arg2)) shapeCasts_S2048_S1x2048) := by
  rw [← entry_act m ρ c, ← entry_weights m ρ c, ← entry_bias m ρ c]
  exact (W3_arr m ρ c 3).trans (Linear.final (V2 m ρ) c)

/-- What @main leaves in the result array: the specification's result of the five argument arrays. -/
theorem result_eq (c : Dev nD) :
    W4 m ρ c (Proc.devRef .tc main_v4)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  rw [← unflatten_linearFlat _ _ _ _ _ shapeCasts_S4x4096x2048_S16384x2048 shapeCasts_S2048_S1x2048 shapeCasts_S16384x2048_S4x4096x2048,
    ← out_flat m ρ c]
  show StableHlo.after hostOps2 (W3 m ρ c) (Proc.devRef .tc main_v4) = _
  after_results
  rfl

end Cert.KernelIdeal.Whole

end
-- ==== Proof.RefValue.lean ====
/-
  The reference's result is the specification. Read one operation at a time, the host program computes at (b, p, o) the
  sum over the input features k of x (b, p, k) times the fake-quantized weight (o, k) — the weight divided by its channel's
  scale, shifted by the zero point, rounded to nearest even, clamped between the words 0.0 and 255.0, shifted back and
  rescaled — plus bias o. The host's quotient and rounding are, on extended reals, the same functions the specification
  names, so only the index functions have to be identified.
-/
import proofs.«162081_j22136261444314_1_alg».proof.Proof.Gen.ReferenceIdeal.Run
import proofs.«162081_j22136261444314_1_alg».proof.Proof.Gen.ReferenceIdeal.Read
import proofs.«162081_j22136261444314_1_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx
open Cert.Spec

/-- Each broadcast of a per-channel column reads the column at the row of the index. -/
theorem idx0_eq (j : S2048x2048.Idx) : idx_main_v0 j = chan (R := 2048) (C := 2048) j :=
  funext fun a => Fin.ext (by match a with | ⟨0, _⟩ => rfl | ⟨1, _⟩ => rfl)
theorem idx2_eq (j : S2048x2048.Idx) : idx_main_v2 j = chan (R := 2048) (C := 2048) j :=
  funext fun a => Fin.ext (by match a with | ⟨0, _⟩ => rfl | ⟨1, _⟩ => rfl)
theorem idx6_eq (j : S2048x2048.Idx) : idx_main_v6 j = chan (R := 2048) (C := 2048) j :=
  funext fun a => Fin.ext (by match a with | ⟨0, _⟩ => rfl | ⟨1, _⟩ => rfl)
theorem idx8_eq (j : S2048x2048.Idx) : idx_main_v8 j = chan (R := 2048) (C := 2048) j :=
  funext fun a => Fin.ext (by match a with | ⟨0, _⟩ => rfl | ⟨1, _⟩ => rfl)

/-- The host's dequantized weight matrix is the specification's, entry by entry. -/
theorem dequant_eq (x1 : (⟨S2048x2048, .f32⟩ : BufTy).Contents (Elt Ideal)) (x3 x4 : (⟨S2048x1, .f32⟩ : BufTy).Contents (Elt Ideal))
    (j : S2048x2048.Idx) : val_main_v9 (F := Ideal) x1 x3 x4 j = dequant x1 x3 x4 j := by
  rw [val_main_v9_apply, val_main_v8_apply, val_main_v7_apply, val_main_v6_apply, val_main_v5_apply,
    val_main_call1_v4_apply, val_main_call1_v3_apply, val_main_cst_0_apply, val_main_call1_v2_apply,
    val_main_call1_v1_apply, val_main_call1_v0_apply, val_main_cst_apply, val_main_v4_apply, val_main_v3_apply,
    val_main_v2_apply, val_main_v1_apply, val_main_v0_apply, idx0_eq, idx2_eq, idx6_eq, idx8_eq]
  rfl

/-- The reference run's result term is the specification's result function of the five argument arrays. -/
theorem result_eq (x0 : (⟨S4x4096x2048, .f32⟩ : BufTy).Contents (Elt Ideal)) (x1 : (⟨S2048x2048, .f32⟩ : BufTy).Contents (Elt Ideal))
    (x2 : (⟨S2048, .f32⟩ : BufTy).Contents (Elt Ideal)) (x3 x4 : (⟨S2048x1, .f32⟩ : BufTy).Contents (Elt Ideal)) :
    val_main_v13 (F := Ideal) x0 x1 x2 x3 x4 = result x0 x1 x2 x3 x4 := by
  funext i
  have el : ∀ k : Fin 2048, lidx_main_v10 i k = ix3 (n0 := 4) (n1 := 4096) (n2 := 2048) (i 0) (i 1) k := fun k =>
    funext fun a => Fin.ext (by match a with | ⟨0, _⟩ => rfl | ⟨1, _⟩ => rfl | ⟨2, _⟩ => rfl)
  have er : ∀ k : Fin 2048, ridx_main_v10 i k = ix2 (n0 := 2048) (n1 := 2048) (i 2) k := fun k =>
    funext fun a => Fin.ext (by match a with | ⟨0, _⟩ => rfl | ⟨1, _⟩ => rfl)
  have eb : idx_main_v11 (idx_main_v12 i) = ix1 (n := 2048) (i 2) :=
    funext fun a => Fin.ext (by match a with | ⟨0, _⟩ => rfl)
  rw [val_main_v13_apply, val_main_v10_apply, val_main_v12_apply, val_main_v11_apply, eb]
  unfold result dotRow
  show (∑ k : Fin 2048, x0 (lidx_main_v10 i k) * val_main_v9 (F := Ideal) x1 x3 x4 (ridx_main_v10 i k)) + x2 (ix1 (n := 2048) (i 2)) = _
  refine congrArg (· + _) (Finset.sum_congr rfl fun k _ => ?_)
  rw [el k, er k, dequant_eq]

end Cert.ReferenceIdeal.RefValue

end
-- ==== Proof.lean ====
/-
  A linear layer with per-output-channel fake-quantized weights, against its plain array reference.

  Both programs compute, at (batch b, position p, output channel o),
      Σ_k x (b, p, k) · q (o, k) + bias o,      q (o, k) = s_o · (clamp₀²⁵⁵ (roundeven (w (o, k) / s_o + z_o)) − z_o),
  on the extended reals. The kernel program does it in two tiled passes — one that fake-quantizes the weight matrix row
  block by row block, one that multiplies 512-row blocks of the flattened activations with 1024-row blocks of the
  quantized weights and adds the bias — between reshapes; the reference does it with whole-array operations. On extended
  reals the kernel's narrowing of its product operands is the identity, its product into a zero accumulator is the plain
  sum of products, and quotient, rounding, minimum and maximum are the same functions on both sides, so the two results
  are the same function of the five argument arrays, entry by entry: no property of the inputs is needed, and the sums
  are over the same index set in the same variable, so no rearrangement of a sum is needed either.

  The kernel program's result is read off its run segment by segment (the first region's output array is the
  fake-quantized weight matrix; the second region's is the flattened layer of what it is entered with; the reshapes keep
  row-major positions); the reference's result is its run's term read one operation at a time. The three frame claims are
  the programs' runs with the result forgotten, and the idealization rewrote nothing.
-/
import proofs.«162081_j22136261444314_1_alg».proof.Defs
import proofs.«162081_j22136261444314_1_alg».proof.Proof.Gen.Kernel
import proofs.«162081_j22136261444314_1_alg».proof.Proof.Gen.Kernel.Skeleton
import proofs.«162081_j22136261444314_1_alg».proof.Proof.Gen.Kernel.Launch
import proofs.«162081_j22136261444314_1_alg».proof.Proof.Gen.Kernel.Points
import proofs.«162081_j22136261444314_1_alg».proof.Proof.Gen.Kernel.Frame
import proofs.«162081_j22136261444314_1_alg».proof.Proof.Gen.KernelIdeal
import proofs.«162081_j22136261444314_1_alg».proof.Proof.Gen.KernelIdeal.Skeleton
import proofs.«162081_j22136261444314_1_alg».proof.Proof.Gen.KernelIdeal.Launch
import proofs.«162081_j22136261444314_1_alg».proof.Proof.Gen.KernelIdeal.Points
import proofs.«162081_j22136261444314_1_alg».proof.Proof.Gen.KernelIdeal.Frame
import proofs.«162081_j22136261444314_1_alg».proof.Proof.Gen.ReferenceIdeal
import proofs.«162081_j22136261444314_1_alg».proof.Proof.Gen.ReferenceIdeal.Run
import proofs.«162081_j22136261444314_1_alg».proof.Proof.Gen.ReferenceIdeal.Read
import proofs.«162081_j22136261444314_1_alg».proof.Proof.Gen.Pre_finite_inputs
import proofs.«162081_j22136261444314_1_alg».proof.Proof.KernelRun
import proofs.«162081_j22136261444314_1_alg».proof.Proof.KernelValue
import proofs.«162081_j22136261444314_1_alg».proof.Proof.RefValue
import Idealize.ShloMosaic.Adequacy
import Idealize.ShloMosaic.Init

noncomputable section

namespace Cert.Proof

open Idealize.ShloMosaic Idealize.ShloMosaic.TcCoe Idealize.SL.Sem

/-- The kernel program at the extended reals: every weakly fair execution terminates with the result array at the
    specification's result of the five argument arrays, and the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
          = Cert.Spec.result (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨(h c).1.trans (Cert.KernelIdeal.Whole.result_eq m ρ c), (h c).2⟩)
    (Cert.KernelIdeal.RunValue.run_named (F := Ideal) m ρ)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the specification's result of those
    arguments in their result arrays. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v13_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
